-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x256 : Shape := ⟨2, ![2, 256]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x256 .f32) (main_arg9 : FVec F S2 .f32) (main_v33 : IVec S_ 1) : IVec S_ 1 :=
  let main_v34 : FVec F S2x256 .f32 := Host.absf main_arg8
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S2x256 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S2x256 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x256 : Shape := ⟨2, ![2, 256]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S800000x256 : Shape := ⟨2, ![800000, 256]⟩
abbrev S800000x2 : Shape := ⟨2, ![800000, 2]⟩
abbrev S8000x256 : Shape := ⟨2, ![8000, 256]⟩
abbrev S8000x2 : Shape := ⟨2, ![8000, 2]⟩
abbrev S256x2 : Shape := ⟨2, ![256, 2]⟩
abbrev S1x2 : Shape := ⟨2, ![1, 2]⟩

abbrev nBuf : Space → Nat
  | .hbm => 79
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x256, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S800000x256, .f32⟩
  | .hbm, ⟨78, _⟩ => ⟨S800000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S8000x256, .f32⟩
  | .local _ .vmem, ⟨19, _⟩ => ⟨S8000x256, .f32⟩
  | .local _ .vmem, ⟨20, _⟩ => ⟨S2x256, .f32⟩
  | .local _ .vmem, ⟨21, _⟩ => ⟨S2, .f32⟩
  | .local _ .vmem, ⟨22, _⟩ => ⟨S8000x2, .f32⟩
  | .local _ .vmem, ⟨23, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  concatenates_S800000x128_S800000x128_S800000x256_d1 : Shape.Concatenates [S800000x128, S800000x128] S800000x256 1
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S2x256_S2x256_0_0 : ∀ a, (![0, 0] : Fin 2 → Nat) a + S2x256.size a ≤ S2x256.size a
  h_S2x256 : 0 < S2x256.numel
  transposes_S2x256_p1_0_S256x2 : S2x256.Transposes [1, 0] S256x2
  inb_S2_S2_0 : ∀ a, (![0] : Fin 1 → Nat) a + S2.size a ≤ S2.size a
  h_S2 : 0 < S2.numel
  shapeCasts_S2_S1x2 : S2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S8000x256_S256x2_S8000x2_1_0_0_1_n_n_wf : DotDims.WF S8000x256 S256x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x256.size a ≤ S800000x256.size a
  hwx2_0 : ∀ i : grid2.Coords, EltTy.bits .f32 = 32 ∨ (Rect.block (s := S800000x256) S8000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x256.size a ≤ S2x256.size a
  hwx2_1 : ∀ i : grid2.Coords, EltTy.bits .f32 = 32 ∨ (Rect.block (s := S2x256) S2x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x2.size a ≤ S800000x2.size a
  hwx2_3 : ∀ i : grid2.Coords, EltTy.bits .f32 = 32 ∨ (Rect.block (s := S800000x2) S8000x2.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S8000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S2x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S8000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x256 : Shape := ⟨2, ![2, 256]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S800000x256 : Shape := ⟨2, ![800000, 256]⟩
abbrev S256x2 : Shape := ⟨2, ![256, 2]⟩
abbrev S800000x2 : Shape := ⟨2, ![800000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x256, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000x1, .f32⟩
  | .hbm, ⟨64, _⟩ => ⟨S_, .f32⟩
  | .hbm, ⟨65, _⟩ => ⟨S50000x1, .f32⟩
  | .hbm, ⟨66, _⟩ => ⟨S800000x1, .i32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S800000x256, .f32⟩
  | .hbm, ⟨103, _⟩ => ⟨S256x2, .f32⟩
  | .hbm, ⟨104, _⟩ => ⟨S800000x2, .f32⟩
  | .hbm, ⟨105, _⟩ => ⟨S1x2, .f32⟩
  | .hbm, ⟨106, _⟩ => ⟨S800000x2, .f32⟩
  | .hbm, ⟨107, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  transposes_S2x256_S256x2_1_0 : S2x256.Transposes [1, 0] S256x2
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S800000x256_S256x2_S800000x2_1_0_0_1_n_n_wf : DotDims.WF S800000x256 S256x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf

class Facts : Prop extends Facts₀ where

variable [Facts]
-- ==== Proof.Spec.lean ====
/-
  The two dense maps of the network, index by index over the extended reals, for any number of rows.

  `sage mean h Wl bl Wr` is one SAGE layer's dense update: at row `r` and output channel `j`,
      max( ∑ₖ mean[r,k]·Wl[j,k] + bl[j] + ∑ₖ h[r,k]·Wr[j,k] , 0 ),
  the neighbour mean through the left weights (contracted over the weights' SECOND axis, the product with the
  transposed matrix), the bias, the node's own features through the right weights, then the rectifier.
  `cls feat Wc bc` is the edge classifier: at edge `e` and class `j`, ∑ₖ feat[e,k]·Wc[j,k] + bc[j].

  Both are row-wise: row `r` of the result reads only row `r` of the row-indexed operands. So a block of rows of the
  result is the same map of the same block of rows of the operands, which is what lets a kernel that walks the rows
  block by block and a reference that takes all rows at once be compared through one function.
-/
import Idealize.ShloMosaic.PureOps.Ideal
import Idealize.ShloMosaic.Lib.ValueIdx

noncomputable section

namespace Cert.Spec

open Idealize.ShloMosaic Idealize.ShloMosaic.ValueIdx

/-- One layer's dense update on `R` rows of 128 features into 128 channels. -/
def sage {R : Nat} (mean h : FVec Ideal ⟨2, ![R, 128]⟩ .f32) (Wl : FVec Ideal ⟨2, ![128, 128]⟩ .f32)
    (bl : FVec Ideal ⟨1, ![128]⟩ .f32) (Wr : FVec Ideal ⟨2, ![128, 128]⟩ .f32) : FVec Ideal ⟨2, ![R, 128]⟩ .f32 :=
  fun i => max (((∑ k : Fin 128, mean (ix2 (i 0) k) * Wl (ix2 (i 1) k)) + bl (ix1 (i 1)))
    + ∑ k : Fin 128, h (ix2 (i 0) k) * Wr (ix2 (i 1) k)) 0

/-- The same at explicit coordinates. -/
theorem sage_apply {R : Nat} (mean h : FVec Ideal ⟨2, ![R, 128]⟩ .f32) (Wl : FVec Ideal ⟨2, ![128, 128]⟩ .f32)
    (bl : FVec Ideal ⟨1, ![128]⟩ .f32) (Wr : FVec Ideal ⟨2, ![128, 128]⟩ .f32) (r : Fin R) (j : Fin 128) :
    sage mean h Wl bl Wr (ix2 r j)
      = max (((∑ k : Fin 128, mean (ix2 r k) * Wl (ix2 j k)) + bl (ix1 j)) + ∑ k : Fin 128, h (ix2 r k) * Wr (ix2 j k)) 0 :=
  rfl

/-- The classifier on `R` rows of 256 features into 2 classes. -/
def cls {R : Nat} (feat : FVec Ideal ⟨2, ![R, 256]⟩ .f32) (Wc : FVec Ideal ⟨2, ![2, 256]⟩ .f32)
    (bc : FVec Ideal ⟨1, ![2]⟩ .f32) : FVec Ideal ⟨2, ![R, 2]⟩ .f32 :=
  fun i => (∑ k : Fin 256, feat (ix2 (i 0) k) * Wc (ix2 (i 1) k)) + bc (ix1 (i 1))

/-- The same at explicit coordinates. -/
theorem cls_apply {R : Nat} (feat : FVec Ideal ⟨2, ![R, 256]⟩ .f32) (Wc : FVec Ideal ⟨2, ![2, 256]⟩ .f32)
    (bc : FVec Ideal ⟨1, ![2]⟩ .f32) (r : Fin R) (j : Fin 2) :
    cls feat Wc bc (ix2 r j) = (∑ k : Fin 256, feat (ix2 r k) * Wc (ix2 j k)) + bc (ix1 j) :=
  rfl

end Cert.Spec

end
-- ==== Proof.KDefs.lean ====
/-
  The host operations of the kernel's program, as functions of arrays.

  `srcV` / `dstV` are the two rows of the edge list; `wrapCol` and `rawCol` turn a vector of row numbers into the column
  a table lookup or an accumulating scatter takes (the lookup first moves a negative number up by the number of rows);
  `invCnt` is the reciprocal of each node's edge count, the count taken at least 1; `kmean h x1` is the neighbour mean of
  a feature table `h`: the source rows gathered, added up per destination, scaled by the reciprocal count; `feats h x1`
  is both endpoints' rows of `h` for every edge, joined side by side. `h1`, `h2`, `out` compose them with the dense maps
  (Spec.lean) into the two layers' outputs and the edge logits.
-/
import proofs.«134314_j31619549233491_1_alg».proof.Proof.Gen.KernelIdeal
import proofs.«134314_j31619549233491_1_alg».proof.Proof.Spec
import Idealize.ShloMosaic.PureOps.Ideal

noncomputable section

namespace Cert.KernelIdeal.Host

open Idealize.ShloMosaic Cert.KernelIdeal Cert.KernelIdeal.Gen

/-- Row 0 of the edge list: the sources. -/
def srcV (x1 : IVec S2x800000 32) : IVec S800000 32 := fun i =>
  shapeCast S800000 (extractStridedSlice S1x800000 ![0, 0] x1 slices_S2x800000_S1x800000_0_0) shapeCasts_S1x800000_S800000 i
/-- Row 1 of the edge list: the destinations. -/
def dstV (x1 : IVec S2x800000 32) : IVec S800000 32 := fun i =>
  shapeCast S800000 (extractStridedSlice S1x800000 ![1, 0] x1 slices_S2x800000_S1x800000_1_0) shapeCasts_S1x800000_S800000 i
/-- A vector of row numbers as a column, a negative one first moved up by the number of rows (the table lookup's convention). -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A vector of row numbers as a column, as it is (the scatter's convention). -/
def rawCol (v : IVec S800000 32) : IVec S800000x1 32 := broadcastInDim S800000x1 ![0] bcast_S800000_S800000x1_0 v

/-- The reciprocal of each node's edge count (at least 1), as a column. -/
def invCnt (x1 : IVec S2x800000 32) : FVec Ideal S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (rawCol (dstV x1))
          (broadcastInDim S800000 ![] bcast_S_S800000 (constant S_ .f32 0x3F800000#32)))
        (broadcastInDim S50000 ![] bcast_S_S50000 (constant S_ .f32 0x3F800000#32))))

/-- The neighbour mean of a feature table: source rows gathered, added up per destination, scaled by the reciprocal count. -/
def kmean (h : FVec Ideal S50000x128 .f32) (x1 : IVec S2x800000 32) : FVec Ideal S50000x128 .f32 :=
  mulf
    (Host.scatterAdd scatter_S50000x128_S800000x1_S800000x128_1_0_0_1
      (broadcastInDim S50000x128 ![] bcast_S_S50000x128 (constant S_ .f32 0x00000000#32))
      (rawCol (dstV x1))
      (Host.gather gather_S50000x128_S800000x1_S800000x128_1_0_n_n_0_1_1128 h (wrapCol (srcV x1))))
    (broadcastInDim S50000x128 ![0, 1] bcast_S50000x1_S50000x128_0_1 (invCnt x1))

/-- Both endpoints' rows of a feature table, joined side by side. -/
def feats (h : FVec Ideal S50000x128 .f32) (x1 : IVec S2x800000 32) : FVec Ideal S800000x256 .f32 :=
  concatenate S800000x256 1
    [⟨S800000x128, Host.gather gather_S50000x128_S800000x1_S800000x128_1_0_n_n_0_1_1128 h (wrapCol (srcV x1))⟩,
     ⟨S800000x128, Host.gather gather_S50000x128_S800000x1_S800000x128_1_0_n_n_0_1_1128 h (wrapCol (dstV x1))⟩]
    concatenates_S800000x128_S800000x128_S800000x256_d1

end Cert.KernelIdeal.Host

namespace Cert.KernelIdeal.Result

open Idealize.ShloMosaic Cert.KernelIdeal Cert.KernelIdeal.Gen Cert.KernelIdeal.Host

/-- The first layer's output. -/
def h1 (x0 : FVec Ideal S50000x128 .f32) (x1 : IVec S2x800000 32) (x2 : FVec Ideal S128x128 .f32) (x3 : FVec Ideal S128 .f32)
    (x4 : FVec Ideal S128x128 .f32) : FVec Ideal S50000x128 .f32 :=
  Cert.Spec.sage (kmean x0 x1) x0 x2 x3 x4
/-- The second layer's output. -/
def h2 (x0 : FVec Ideal S50000x128 .f32) (x1 : IVec S2x800000 32) (x2 : FVec Ideal S128x128 .f32) (x3 : FVec Ideal S128 .f32)
    (x4 x5 : FVec Ideal S128x128 .f32) (x6 : FVec Ideal S128 .f32) (x7 : FVec Ideal S128x128 .f32) : FVec Ideal S50000x128 .f32 :=
  Cert.Spec.sage (kmean (h1 x0 x1 x2 x3 x4) x1) (h1 x0 x1 x2 x3 x4) x5 x6 x7
/-- The edge logits. -/
def out (x0 : FVec Ideal S50000x128 .f32) (x1 : IVec S2x800000 32) (x2 : FVec Ideal S128x128 .f32) (x3 : FVec Ideal S128 .f32)
    (x4 x5 : FVec Ideal S128x128 .f32) (x6 : FVec Ideal S128 .f32) (x7 : FVec Ideal S128x128 .f32)
    (x8 : FVec Ideal S2x256 .f32) (x9 : FVec Ideal S2 .f32) : FVec Ideal S800000x2 .f32 :=
  Cert.Spec.cls (feats (h2 x0 x1 x2 x3 x4 x5 x6 x7) x1) x8 x9

end Cert.KernelIdeal.Result

end
-- ==== Proof.Payload.lean ====
/-
  What each kernel body computes from the blocks it loads, as the network's dense maps (Spec.lean) on a block of rows.

  A layer's body takes a block of 5000 rows of the neighbour means and of the node features and the whole weight
  matrices and bias: the casts to the narrower format are the identity on extended reals, the transposed weight matrix
  times the block contracts the weights' second axis, the matrix unit's product into a zero accumulator is the plain sum
  of products, the bias is spread along the rows, and the maximum with the zero splat is the rectifier. The classifier's
  body does the same with one product and no rectifier on a block of 8000 rows.
-/
import proofs.«134314_j31619549233491_1_alg».proof.Proof.Gen.KernelIdeal.Skeleton
import proofs.«134314_j31619549233491_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Payload

open Idealize.ShloMosaic Idealize.ShloMosaic.ValueIdx Cert.KernelIdeal Cert.KernelIdeal.Gen

/-! ## The pieces, at an index, over any sizes -/

section Pieces
variable {R K N : Nat}

/-- The matrix unit's product of an R×K by a K×N matrix into the zero accumulator, at row r and column j, is the sum over
    the contracted coordinate of the products of the entries. -/
theorem matmul_zero_plain_apply {φ₁ φ₂ : FTy} (d : DotDims ⟨2, ![R, K]⟩ ⟨2, ![K, N]⟩ ⟨2, ![R, N]⟩)
    (hd : d = DotDims.plain R K N) (A : FVec Ideal ⟨2, ![R, K]⟩ φ₁) (B : FVec Ideal ⟨2, ![K, N]⟩ φ₂) (r : Fin R) (j : Fin N) :
    matmul d none A B (constant ⟨2, ![R, N]⟩ .f32 0x00000000#32) (ix2 r j) = ∑ k : Fin K, A (ix2 r k) * B (ix2 k j) := by
  subst hd
  rw [← StackMember.dotGeneral_plain_apply none A B r j]
  show FloatOps.matmul _ _ _ _ _ _ = FloatOps.dotGeneral _ _ _ _ _ _
  rw [Ideal.matmul_constant_zero_apply, Ideal.dotGeneral_apply]

/-- The transpose of an N×K matrix read at (k, j) is the matrix at (j, k). -/
theorem transpose_swap_apply {α : Type} (x : (⟨2, ![N, K]⟩ : Shape).Idx → α)
    (h : (⟨2, ![N, K]⟩ : Shape).Transposes [1, 0] ⟨2, ![K, N]⟩) (k : Fin K) (j : Fin N) :
    transpose ⟨2, ![K, N]⟩ [1, 0] x h (ix2 k j) = x (ix2 j k) :=
  transpose_apply [1, 0] x h (ix2 k j) (ix2 j k) fun b => match b with
    | ⟨0, _⟩ => rfl
    | ⟨1, _⟩ => rfl

/-- A vector of N entries viewed as one row and spread along R rows reads, at row r and column j, its entry j. -/
theorem bias_apply {α : Type} (v : (⟨1, ![N]⟩ : Shape).Idx → α) (hc : (⟨1, ![N]⟩ : Shape).ShapeCasts ⟨2, ![1, N]⟩)
    (hb : (⟨2, ![1, N]⟩ : Shape).Broadcasts ⟨2, ![R, N]⟩) (r : Fin R) (j : Fin N) :
    broadcastTo ⟨2, ![R, N]⟩ (shapeCast ⟨2, ![1, N]⟩ v hc) hb (ix2 r j) = v (ix1 j) := by
  refine (broadcastTo_apply _ hb (ix2 r j) (ix2 ⟨0, Nat.one_pos⟩ j) ?_).trans ?_
  · intro a
    match a with
    | ⟨0, _⟩ => exact (if_pos rfl).symm
    | ⟨1, _⟩ =>
      show j.val = if N = 1 then 0 else j.val
      have := j.isLt
      split <;> omega
  · rw [shapeCast_addUnit_apply ![N] v hc]
    congr 1
    funext a
    match a with
    | ⟨0, _⟩ => rfl

/-- The product the bodies compute: the block, cast to the narrower format, times the transpose of the cast weight matrix,
    into the zero accumulator. At row r and output channel j it contracts the weights' second axis. -/
theorem matmul_weights_apply {φ ψ : FTy} (d : DotDims ⟨2, ![R, K]⟩ ⟨2, ![K, N]⟩ ⟨2, ![R, N]⟩)
    (hd : d = DotDims.plain R K N) (A : FVec Ideal ⟨2, ![R, K]⟩ φ) (W : FVec Ideal ⟨2, ![N, K]⟩ φ) (hψ : ψ.bits < φ.bits)
    (ht : (⟨2, ![N, K]⟩ : Shape).Transposes [1, 0] ⟨2, ![K, N]⟩) (r : Fin R) (j : Fin N) :
    matmul d none (truncf ψ A hψ) (transpose ⟨2, ![K, N]⟩ [1, 0] (truncf ψ W hψ) ht)
        (constant ⟨2, ![R, N]⟩ .f32 0x00000000#32) (ix2 r j)
      = ∑ k : Fin K, A (ix2 r k) * W (ix2 j k) := by
  rw [matmul_zero_plain_apply d hd]
  refine Finset.sum_congr rfl fun k _ => ?_
  rw [transpose_swap_apply, truncf_apply, truncf_apply]

end Pieces

/-- The first layer's body on its loaded blocks. -/
theorem pay0_eq (v0 v3 : Vec Ideal S5000x128 .f32) (v5 v7 : Vec Ideal S128x128 .f32) (v11 : Vec Ideal S128 .f32) :
    k0_pay1 (F := Ideal) v0 v3 v5 v7 v11 = Cert.Spec.sage v0 v3 v5 v11 v7 := by
  funext i
  obtain ⟨r, j, rfl⟩ : ∃ (r : Fin 5000) (j : Fin 128), i = ix2 r j := ⟨i 0, i 1, eq_ix2 i⟩
  rw [Cert.Spec.sage_apply]
  unfold k0_pay1
  dsimp only
  rw [shapeCast_self, maximumf_apply, addf_apply, addf_apply, broadcast_apply,
    matmul_weights_apply dot_S5000x128_S128x128_S5000x128_1_0_0_1_n_n rfl,
    matmul_weights_apply dot_S5000x128_S128x128_S5000x128_1_0_0_1_n_n rfl, bias_apply]
  show max _ (Ideal.ofBits .f32 0x00000000#32) = _
  rw [Ideal.ofBits_zero_f32]

/-- The second layer's body on its loaded blocks. -/
theorem pay1_eq (v0 v3 : Vec Ideal S5000x128 .f32) (v6 v8 : Vec Ideal S128x128 .f32) (v12 : Vec Ideal S128 .f32) :
    k1_pay1 (F := Ideal) v0 v3 v6 v8 v12 = Cert.Spec.sage v0 v3 v6 v12 v8 := by
  funext i
  obtain ⟨r, j, rfl⟩ : ∃ (r : Fin 5000) (j : Fin 128), i = ix2 r j := ⟨i 0, i 1, eq_ix2 i⟩
  rw [Cert.Spec.sage_apply]
  unfold k1_pay1
  dsimp only
  rw [shapeCast_self, shapeCast_self, maximumf_apply, addf_apply, addf_apply, broadcast_apply,
    matmul_weights_apply dot_S5000x128_S128x128_S5000x128_1_0_0_1_n_n rfl,
    matmul_weights_apply dot_S5000x128_S128x128_S5000x128_1_0_0_1_n_n rfl, bias_apply]
  show max _ (Ideal.ofBits .f32 0x00000000#32) = _
  rw [Ideal.ofBits_zero_f32]

/-- The classifier's body on its loaded blocks. -/
theorem pay2_eq (v0 : Vec Ideal S8000x256 .f32) (v3 : Vec Ideal S2x256 .f32) (v7 : Vec Ideal S2 .f32) :
    k2_pay1 (F := Ideal) v0 v3 v7 = Cert.Spec.cls v0 v3 v7 := by
  funext i
  obtain ⟨r, j, rfl⟩ : ∃ (r : Fin 8000) (j : Fin 2), i = ix2 r j := ⟨i 0, i 1, eq_ix2 i⟩
  rw [Cert.Spec.cls_apply]
  unfold k2_pay1
  dsimp only
  rw [shapeCast_self, addf_apply, matmul_weights_apply dot_S8000x256_S256x2_S8000x2_1_0_0_1_n_n rfl, bias_apply]

end Cert.KernelIdeal.Payload

end
-- ==== Proof.Region0.lean ====
/-
  Region 0: what the layer's pallas_call leaves in its result array, as ONE function of the arrays it is entered with.

  The grid has 10 points; point `t` loads rows `5000·t … 5000·t + 4999` of the neighbour means and of the node features,
  the whole weight matrices and bias, and writes back the same rows of the result. The body's result on a block is the
  layer's dense map of that block (Payload.lean); the dense map is row-wise, so row `r` of the block at point `t` is row
  `5000·t + r` of the dense map of the whole arrays; and the ten blocks cover all 50000 rows (row `i` lies in the block
  of point `i / 5000`). Hence the array ends at the dense map of the entry arrays.
-/
import proofs.«134314_j31619549233491_1_alg».proof.Proof.Gen.KernelIdeal.Frame
import proofs.«134314_j31619549233491_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs move with the output, whose block index along the
    rows is the point's number; everything else sits at block 0. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0 :=
  (by decide +kernel : ∀ t : Fin grid0.N, _)

/-- Row `r` of the block of point `t`, as a row of the whole array. -/
def row (t : Fin cfg0.N) (r : Fin 5000) : Fin 50000 :=
  ⟨t.val * 5000 + r.val, by have := t.isLt; have := r.isLt; show t.val * 5000 + r.val < 50000; have : t.val < 10 := t.isLt; omega⟩

/-- The means' block at point `t`, read at row `r`. -/
theorem mean_blk (c : Dev nD) (t : Fin cfg0.N) (r : Fin 5000) (k : Fin 128) :
    iblk0 V c 0 t (ix2 r k) = V c main_v24 (ix2 (row t r) k) := by
  obtain ⟨e50, e51, e00, e01, e10, e11, e20, e21, e30, e40, e41⟩ := idx_facts t
  show V c main_v24 (((cfg0.win 0).blk t).view.emb (ix2 r k)) = V c main_v24 (ix2 (row t r) k)
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The features' block at point `t`, read at row `r`. -/
theorem feat_blk (c : Dev nD) (t : Fin cfg0.N) (r : Fin 5000) (k : Fin 128) :
    iblk0 V c 1 t (ix2 r k) = V c main_arg0 (ix2 (row t r) k) := by
  obtain ⟨e50, e51, e00, e01, e10, e11, e20, e21, e30, e40, e41⟩ := idx_facts t
  show V c main_arg0 (((cfg0.win 1).blk t).view.emb (ix2 r k)) = V c main_arg0 (ix2 (row t r) k)
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

/-- The left weights' block is the whole matrix. -/
theorem wl_blk (c : Dev nD) (t : Fin cfg0.N) (j k : Fin 128) :
    iblk0 V c 2 t (ix2 j k) = V c main_arg2 (ix2 j k) := by
  obtain ⟨e50, e51, e00, e01, e10, e11, e20, e21, e30, e40, e41⟩ := idx_facts t
  show V c main_arg2 (((cfg0.win 2).blk t).view.emb (ix2 j k)) = V c main_arg2 (ix2 j k)
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

/-- The bias's block is the whole vector. -/
theorem bl_blk (c : Dev nD) (t : Fin cfg0.N) (j : Fin 128) :
    iblk0 V c 3 t (ix1 j) = V c main_arg3 (ix1 j) := by
  obtain ⟨e50, e51, e00, e01, e10, e11, e20, e21, e30, e40, e41⟩ := idx_facts t
  show V c main_arg3 (((cfg0.win 3).blk t).view.emb (ix1 j)) = V c main_arg3 (ix1 j)
  refine congrArg _ (funext fun a => Fin.ext ?_)
  match a with
  | ⟨0, _⟩ => show win0_3.index t (0 : Fin 1) * 128 + 1 * j.val = j.val; omega

/-- The right weights' block is the whole matrix. -/
theorem wr_blk (c : Dev nD) (t : Fin cfg0.N) (j k : Fin 128) :
    iblk0 V c 4 t (ix2 j k) = V c main_arg4 (ix2 j k) := by
  obtain ⟨e50, e51, e00, e01, e10, e11, e20, e21, e30, e40, e41⟩ := idx_facts t
  show V c main_arg4 (((cfg0.win 4).blk t).view.emb (ix2 j k)) = V c main_arg4 (ix2 j k)
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

/-- The output block's entry `(r, j)` sits at row `5000·t + r`, column `j` of the array. -/
theorem out_emb (t : Fin cfg0.N) (r : Fin 5000) (j : Fin 128) :
    ((cfg0.win 5).blk t).view.emb (ix2 r j) = ix2 (row t r) j := by
  obtain ⟨e50, e51, e00, e01, e10, e11, e20, e21, e30, e40, e41⟩ := idx_facts t
  refine funext fun a => Fin.ext ?_
  match a with
  | ⟨0, _⟩ => show win0_5.index t (0 : Fin 2) * 5000 + 1 * r.val = t.val * 5000 + r.val; omega
  | ⟨1, _⟩ => show win0_5.index t (1 : Fin 2) * 128 + 1 * j.val = j.val; omega

/-- WHAT POINT `t` WRITES BACK is block `t` of the dense map of the entry arrays. -/
theorem flushed_eq (c : Dev nD) (t : Fin cfg0.N) :
    (dat0 V c).flushed 5 t = ((cfg0.win 5).blk t).view.read (Elt Ideal)
      (Cert.Spec.sage (V c main_v24) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext y
  obtain ⟨r, j, rfl⟩ : ∃ (r : Fin 5000) (j : Fin 128), y = ix2 r j := ⟨y 0, y 1, eq_ix2 y⟩
  show k0_pay1 (F := Ideal) (iblk0 V c 0 t) (iblk0 V c 1 t) (iblk0 V c 2 t) (iblk0 V c 4 t) (iblk0 V c 3 t) (ix2 r j)
    = Cert.Spec.sage (V c main_v24) (V c main_arg0) (V c main_arg2) (V c main_arg3) (V c main_arg4) (((cfg0.win 5).blk t).view.emb (ix2 r j))
  rw [out_emb t r j, Cert.Spec.sage_apply]
  refine (congrFun (Cert.KernelIdeal.Payload.pay0_eq (iblk0 V c 0 t) (iblk0 V c 1 t) (iblk0 V c 2 t) (iblk0 V c 4 t) (iblk0 V c 3 t)) (ix2 r j)).trans ?_
  rw [Cert.Spec.sage_apply]
  simp only [mean_blk V c t r, feat_blk V c t r, wl_blk V c t j, wr_blk V c t j, bl_blk V c t j]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every index lies in the block of the point its row number picks. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨e50, e51, -⟩ := idx_facts t
  refine ⟨t, flush0_5 t, ?_⟩
  rw [mem_blk]
  intro a
  have ht : t.val = (i 0).val / 5000 := rfl
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the dense map of the entry arrays. -/
theorem final (c : Dev nD) :
    (dat0 V c).arrAt 5 cfg0.N
      = Cert.Spec.sage (V c main_v24) (V c main_arg0) (V c main_arg2) (V c main_arg3) (V c main_arg4) :=
  (dat0 V c).arrAt_eq_of_cover 5 _ (fun t _ => flushed_eq V c t) cover

end Cert.KernelIdeal.Region0

end
-- ==== Proof.Region1.lean ====
/-
  Region 1: what the layer's pallas_call leaves in its result array, as ONE function of the arrays it is entered with.

  The grid has 10 points; point `t` loads rows `5000·t … 5000·t + 4999` of the neighbour means and of the node features,
  the whole weight matrices and bias, and writes back the same rows of the result. The body's result on a block is the
  layer's dense map of that block (Payload.lean); the dense map is row-wise, so row `r` of the block at point `t` is row
  `5000·t + r` of the dense map of the whole arrays; and the ten blocks cover all 50000 rows (row `i` lies in the block
  of point `i / 5000`). Hence the array ends at the dense map of the entry arrays.
-/
import proofs.«134314_j31619549233491_1_alg».proof.Proof.Gen.KernelIdeal.Frame
import proofs.«134314_j31619549233491_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-blocked inputs move with the output, whose block index along the
    rows is the point's number; everything else sits at block 0. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- Row `r` of the block of point `t`, as a row of the whole array. -/
def row (t : Fin cfg1.N) (r : Fin 5000) : Fin 50000 :=
  ⟨t.val * 5000 + r.val, by have := t.isLt; have := r.isLt; show t.val * 5000 + r.val < 50000; have : t.val < 10 := t.isLt; omega⟩

/-- The means' block at point `t`, read at row `r`. -/
theorem mean_blk (c : Dev nD) (t : Fin cfg1.N) (r : Fin 5000) (k : Fin 128) :
    iblk1 V c 0 t (ix2 r k) = V c main_v37 (ix2 (row t r) k) := by
  obtain ⟨e50, e51, e00, e01, e10, e11, e20, e21, e30, e40, e41⟩ := idx_facts t
  show V c main_v37 (((cfg1.win 0).blk t).view.emb (ix2 r k)) = V c main_v37 (ix2 (row t r) k)
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

/-- The features' block at point `t`, read at row `r`. -/
theorem feat_blk (c : Dev nD) (t : Fin cfg1.N) (r : Fin 5000) (k : Fin 128) :
    iblk1 V c 1 t (ix2 r k) = V c main_v25 (ix2 (row t r) k) := by
  obtain ⟨e50, e51, e00, e01, e10, e11, e20, e21, e30, e40, e41⟩ := idx_facts t
  show V c main_v25 (((cfg1.win 1).blk t).view.emb (ix2 r k)) = V c main_v25 (ix2 (row t r) k)
  refine congrArg _ (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

/-- The left weights' block is the whole matrix. -/
theorem wl_blk (c : Dev nD) (t : Fin cfg1.N) (j k : Fin 128) :
    iblk1 V c 2 t (ix2 j k) = V c main_arg5 (ix2 j k) := by
  obtain ⟨e50, e51, e00, e01, e10, e11, e20, e21, e30, e40, e41⟩ := idx_facts t
  show V c main_arg5 (((cfg1.win 2).blk t).view.emb (ix2 j k)) = V c main_arg5 (ix2 j k)
  refine congrArg _ (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega

/-- The bias's block is the whole vector. -/
theorem bl_blk (c : Dev nD) (t : Fin cfg1.N) (j : Fin 128) :
    iblk1 V c 3 t (ix1 j) = V c main_arg6 (ix1 j) := by
  obtain ⟨e50, e51, e00, e01, e10, e11, e20, e21, e30, e40, e41⟩ := idx_facts t
  show V c main_arg6 (((cfg1.win 3).blk t).view.emb (ix1 j)) = V c main_arg6 (ix1 j)
  refine congrArg _ (funext fun a => Fin.ext ?_)
  match a with
  | ⟨0, _⟩ => show win1_3.index t (0 : Fin 1) * 128 + 1 * j.val = j.val; omega

/-- The right weights' block is the whole matrix. -/
theorem wr_blk (c : Dev nD) (t : Fin cfg1.N) (j k : Fin 128) :
    iblk1 V c 4 t (ix2 j k) = V c main_arg7 (ix2 j k) := by
  obtain ⟨e50, e51, e00, e01, e10, e11, e20, e21, e30, e40, e41⟩ := idx_facts t
  show V c main_arg7 (((cfg1.win 4).blk t).view.emb (ix2 j k)) = V c main_arg7 (ix2 j k)
  refine congrArg _ (funext fun a => Fin.ext ?_)
  match a with
  | ⟨0, _⟩ => show win1_4.index t (0 : Fin 2) * 128 + 1 * j.val = j.val; omega
  | ⟨1, _⟩ => show win1_4.index t (1 : Fin 2) * 128 + 1 * k.val = k.val; omega

/-- The output block's entry `(r, j)` sits at row `5000·t + r`, column `j` of the array. -/
theorem out_emb (t : Fin cfg1.N) (r : Fin 5000) (j : Fin 128) :
    ((cfg1.win 5).blk t).view.emb (ix2 r j) = ix2 (row t r) j := by
  obtain ⟨e50, e51, e00, e01, e10, e11, e20, e21, e30, e40, e41⟩ := idx_facts t
  refine funext fun a => Fin.ext ?_
  match a with
  | ⟨0, _⟩ => show win1_5.index t (0 : Fin 2) * 5000 + 1 * r.val = t.val * 5000 + r.val; omega
  | ⟨1, _⟩ => show win1_5.index t (1 : Fin 2) * 128 + 1 * j.val = j.val; omega

/-- WHAT POINT `t` WRITES BACK is block `t` of the dense map of the entry arrays. -/
theorem flushed_eq (c : Dev nD) (t : Fin cfg1.N) :
    (dat1 V c).flushed 5 t = ((cfg1.win 5).blk t).view.read (Elt Ideal)
      (Cert.Spec.sage (V c main_v37) (V c main_v25) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext y
  obtain ⟨r, j, rfl⟩ : ∃ (r : Fin 5000) (j : Fin 128), y = ix2 r j := ⟨y 0, y 1, eq_ix2 y⟩
  show k1_pay1 (F := Ideal) (iblk1 V c 0 t) (iblk1 V c 1 t) (iblk1 V c 2 t) (iblk1 V c 4 t) (iblk1 V c 3 t) (ix2 r j)
    = Cert.Spec.sage (V c main_v37) (V c main_v25) (V c main_arg5) (V c main_arg6) (V c main_arg7) (((cfg1.win 5).blk t).view.emb (ix2 r j))
  rw [out_emb t r j, Cert.Spec.sage_apply]
  refine (congrFun (Cert.KernelIdeal.Payload.pay1_eq (iblk1 V c 0 t) (iblk1 V c 1 t) (iblk1 V c 2 t) (iblk1 V c 4 t) (iblk1 V c 3 t)) (ix2 r j)).trans ?_
  rw [Cert.Spec.sage_apply]
  simp only [mean_blk V c t r, feat_blk V c t r, wl_blk V c t j, wr_blk V c t j, bl_blk V c t j]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Every index lies in the block of the point its row number picks. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨e50, e51, -⟩ := idx_facts t
  refine ⟨t, flush1_5 t, ?_⟩
  rw [mem_blk]
  intro a
  have ht : t.val = (i 0).val / 5000 := rfl
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: the dense map of the entry arrays. -/
theorem final (c : Dev nD) :
    (dat1 V c).arrAt 5 cfg1.N
      = Cert.Spec.sage (V c main_v37) (V c main_v25) (V c main_arg5) (V c main_arg6) (V c main_arg7) :=
  (dat1 V c).arrAt_eq_of_cover 5 _ (fun t _ => flushed_eq V c t) cover

end Cert.KernelIdeal.Region1

end
-- ==== Proof.Region2.lean ====
/-
  Region 2: what the classifier's pallas_call leaves in the result array, as ONE function of the arrays it is entered with.

  The grid has 100 points; point `t` loads rows `8000·t … 8000·t + 7999` of the joined endpoint features, the whole
  classifier matrix and bias, and writes back the same rows of the result. The body's result on a block is the
  classifier's map of that block (Payload.lean); the map is row-wise, so row `r` of the block at point `t` is row
  `8000·t + r` of the map of the whole arrays; and the hundred blocks cover all 800000 rows (row `i` lies in the block
  of point `i / 8000`). Hence the array ends at the classifier's map of the entry arrays.
-/
import proofs.«134314_j31619549233491_1_alg».proof.Proof.Gen.KernelIdeal.Frame
import proofs.«134314_j31619549233491_1_alg».proof.Proof.Payload
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked input moves with the output, whose block index along the
    rows is the point's number; everything else sits at block 0. -/
theorem idx_facts : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 1) = 0 :=
  (by decide +kernel : ∀ t : Fin grid2.N, _)

/-- Row `r` of the block of point `t`, as a row of the whole array. -/
def row (t : Fin cfg2.N) (r : Fin 8000) : Fin 800000 :=
  ⟨t.val * 8000 + r.val, by have := r.isLt; show t.val * 8000 + r.val < 800000; have : t.val < 100 := t.isLt; omega⟩

/-- The features' block at point `t`, read at row `r`. -/
theorem feat_blk (c : Dev nD) (t : Fin cfg2.N) (r : Fin 8000) (k : Fin 256) :
    iblk2 V c 0 t (ix2 r k) = V c main_v53 (ix2 (row t r) k) := by
  obtain ⟨e30, e31, e00, e01, e10, e11, e20⟩ := idx_facts t
  show V c main_v53 (((cfg2.win 0).blk t).view.emb (ix2 r k)) = V c main_v53 (ix2 (row t r) k)
  refine congrArg _ (funext fun a => Fin.ext ?_)
  match a with
  | ⟨0, _⟩ => show win2_0.index t (0 : Fin 2) * 8000 + 1 * r.val = t.val * 8000 + r.val; omega
  | ⟨1, _⟩ => show win2_0.index t (1 : Fin 2) * 256 + 1 * k.val = k.val; omega

/-- The classifier matrix's block is the whole matrix. -/
theorem wc_blk (c : Dev nD) (t : Fin cfg2.N) (j : Fin 2) (k : Fin 256) :
    iblk2 V c 1 t (ix2 j k) = V c main_arg8 (ix2 j k) := by
  obtain ⟨e30, e31, e00, e01, e10, e11, e20⟩ := idx_facts t
  show V c main_arg8 (((cfg2.win 1).blk t).view.emb (ix2 j k)) = V c main_arg8 (ix2 j k)
  refine congrArg _ (funext fun a => Fin.ext ?_)
  match a with
  | ⟨0, _⟩ => show win2_1.index t (0 : Fin 2) * 2 + 1 * j.val = j.val; omega
  | ⟨1, _⟩ => show win2_1.index t (1 : Fin 2) * 256 + 1 * k.val = k.val; omega

/-- The bias's block is the whole vector. -/
theorem bc_blk (c : Dev nD) (t : Fin cfg2.N) (j : Fin 2) :
    iblk2 V c 2 t (ix1 j) = V c main_arg9 (ix1 j) := by
  obtain ⟨e30, e31, e00, e01, e10, e11, e20⟩ := idx_facts t
  show V c main_arg9 (((cfg2.win 2).blk t).view.emb (ix1 j)) = V c main_arg9 (ix1 j)
  refine congrArg _ (funext fun a => Fin.ext ?_)
  match a with
  | ⟨0, _⟩ => show win2_2.index t (0 : Fin 1) * 2 + 1 * j.val = j.val; omega

/-- The output block's entry `(r, j)` sits at row `8000·t + r`, column `j` of the array. -/
theorem out_emb (t : Fin cfg2.N) (r : Fin 8000) (j : Fin 2) :
    ((cfg2.win 3).blk t).view.emb (ix2 r j) = ix2 (row t r) j := by
  obtain ⟨e30, e31, e00, e01, e10, e11, e20⟩ := idx_facts t
  refine funext fun a => Fin.ext ?_
  match a with
  | ⟨0, _⟩ => show win2_3.index t (0 : Fin 2) * 8000 + 1 * r.val = t.val * 8000 + r.val; omega
  | ⟨1, _⟩ => show win2_3.index t (1 : Fin 2) * 2 + 1 * j.val = j.val; omega

/-- WHAT POINT `t` WRITES BACK is block `t` of the classifier's map of the entry arrays. -/
theorem flushed_eq (c : Dev nD) (t : Fin cfg2.N) :
    (dat2 V c).flushed 3 t = ((cfg2.win 3).blk t).view.read (Elt Ideal)
      (Cert.Spec.cls (V c main_v53) (V c main_arg8) (V c main_arg9)) := by
  show (cfg2.win 3).cut (grid2.coords t) ((dat2 V c).after 3 t) = _
  rw [after2_3]
  unfold out2_3
  rw [View.canon_unit_zero hz2]
  simp only [View.ld_unit_zero (S := S8000x256) hz2, View.ld_unit_zero (S := S2x256) hz2, View.ld_unit_zero (S := S2) hz1]
  funext y
  obtain ⟨r, j, rfl⟩ : ∃ (r : Fin 8000) (j : Fin 2), y = ix2 r j := ⟨y 0, y 1, eq_ix2 y⟩
  show k2_pay1 (F := Ideal) (iblk2 V c 0 t) (iblk2 V c 1 t) (iblk2 V c 2 t) (ix2 r j)
    = Cert.Spec.cls (V c main_v53) (V c main_arg8) (V c main_arg9) (((cfg2.win 3).blk t).view.emb (ix2 r j))
  rw [out_emb t r j, Cert.Spec.cls_apply]
  refine (congrFun (Cert.KernelIdeal.Payload.pay2_eq (iblk2 V c 0 t) (iblk2 V c 1 t) (iblk2 V c 2 t)) (ix2 r j)).trans ?_
  rw [Cert.Spec.cls_apply]
  simp only [feat_blk V c t r, wc_blk V c t j, bc_blk V c t j]

/-- An index of the array is in point `t`'s block iff each coordinate is in the block's range on its axis. -/
theorem mem_blk (t : Fin cfg2.N) (i : S800000x2.Idx) :
    i ∈ ((cfg2.win 3).blk t).view.set ↔ ∀ a : Fin 2, win2_3.index t a * S8000x2.size a ≤ (i a).val ∧ (i a).val < win2_3.index t a * S8000x2.size a + S8000x2.size a := by
  show i ∈ ((View.whole main_v54).slice (win2_3.rect t)).set ↔ _
  rw [View.set_slice_whole, Rect.mem_set_unit]
  exact Iff.rfl

/-- Every index lies in the block of the point its row number picks. -/
theorem cover (i : S800000x2.Idx) :
    ∃ t : Fin cfg2.N, (cfg2.win 3).flush t = true ∧ i ∈ ((cfg2.win 3).blk t).view.set := by
  have hi0 : (i 0).val < 800000 := (i 0).isLt
  have hi1 : (i 1).val < 2 := (i 1).isLt
  let t : Fin cfg2.N := ⟨(i 0).val / 8000, by show (i 0).val / 8000 < 100; omega⟩
  obtain ⟨e30, e31, -⟩ := idx_facts t
  refine ⟨t, flush2_3 t, ?_⟩
  rw [mem_blk]
  intro a
  have ht : t.val = (i 0).val / 8000 := rfl
  match a with
  | ⟨0, _⟩ => show win2_3.index t (0 : Fin 2) * 8000 ≤ (i 0).val ∧ (i 0).val < win2_3.index t (0 : Fin 2) * 8000 + 8000; omega
  | ⟨1, _⟩ => show win2_3.index t (1 : Fin 2) * 2 ≤ (i 1).val ∧ (i 1).val < win2_3.index t (1 : Fin 2) * 2 + 2; omega

/-- THE ARRAY after the region: the classifier's map of the entry arrays. -/
theorem final (c : Dev nD) :
    (dat2 V c).arrAt 3 cfg2.N = Cert.Spec.cls (V c main_v53) (V c main_arg8) (V c main_arg9) :=
  (dat2 V c).arrAt_eq_of_cover 3 _ (fun t _ => flushed_eq V c t) cover

end Cert.KernelIdeal.Region2

end
-- ==== Proof.KHost.lean ====
/-
  The host side of the kernel's program: what the arrays hold when each pallas_call is entered, and the result.

  Before the first call the host slices the two rows of the edge list (sources, destinations), counts the edges into each
  node, takes the reciprocal of the count (at least 1), gathers the source rows of the features, adds them up per
  destination and scales by the reciprocal count: `kmean x x1`. Between the calls it does the same to the first call's
  result, and before the last call it gathers the second call's result at both endpoints of every edge and joins the two
  halves: `feats h x1`. Every argument array reaches every call as launched. With each call's result the dense map of
  its entry arrays (Region0/1/2.lean), the program's result is `cls (feats h₂ x1) Wc bc` with
  `h₁ = sage (kmean x x1) x …` and `h₂ = sage (kmean h₁ x1) h₁ …`.
-/
import proofs.«134314_j31619549233491_1_alg».proof.Proof.KDefs
import proofs.«134314_j31619549233491_1_alg».proof.Proof.KernelRun
import proofs.«134314_j31619549233491_1_alg».proof.Proof.Region0
import proofs.«134314_j31619549233491_1_alg».proof.Proof.Region1
import proofs.«134314_j31619549233491_1_alg».proof.Proof.Region2
import Idealize.ShloMosaic.Lib.StableHlo.Run
import Idealize.ShloMosaic.PureOps.Ideal

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first stretch, from the launch memory -/

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp
set_option maxHeartbeats 4000000 in
theorem W1_arg1 (c : Dev nD) : W1 m ρ c (Proc.devRef .tc main_arg1) = m ((c : Thread nD τ).loc main_arg1) := by
  show StableHlo.after hostOps0 (W0 m ρ c) (Proc.devRef .tc main_arg1) = _
  after_results_simp
set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp
set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp
set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp
set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp
set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp
set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp
set_option maxHeartbeats 4000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp
set_option maxHeartbeats 4000000 in
theorem W1_arg9 (c : Dev nD) : W1 m ρ c (Proc.devRef .tc main_arg9) = m ((c : Thread nD τ).loc main_arg9) := by
  show StableHlo.after hostOps0 (W0 m ρ c) (Proc.devRef .tc main_arg9) = _
  after_results_simp

set_option maxHeartbeats 4000000 in
theorem W1_v1 (c : Dev nD) : W1 m ρ c (Proc.devRef .tc main_v1) = srcV (m ((c : Thread nD τ).loc main_arg1)) := by
  show StableHlo.after hostOps0 (W0 m ρ c) (Proc.devRef .tc main_v1) = _
  after_results_simp
  rfl
set_option maxHeartbeats 4000000 in
theorem W1_v3 (c : Dev nD) : W1 m ρ c (Proc.devRef .tc main_v3) = dstV (m ((c : Thread nD τ).loc main_arg1)) := by
  show StableHlo.after hostOps0 (W0 m ρ c) (Proc.devRef .tc main_v3) = _
  after_results_simp
  rfl
set_option maxHeartbeats 4000000 in
theorem W1_v12 (c : Dev nD) : W1 m ρ c (Proc.devRef .tc main_v12) = invCnt (m ((c : Thread nD τ).loc main_arg1)) := by
  show StableHlo.after hostOps0 (W0 m ρ c) (Proc.devRef .tc main_v12) = _
  after_results_simp
  rfl
set_option maxHeartbeats 8000000 in
theorem W1_v24 (c : Dev nD) :
    W1 m ρ c (Proc.devRef .tc main_v24) = kmean (m ((c : Thread nD τ).loc main_arg0)) (m ((c : Thread nD τ).loc main_arg1)) := by
  show StableHlo.after hostOps0 (W0 m ρ c) (Proc.devRef .tc main_v24) = _
  after_results_simp
  rfl

/-! ## The second stretch, from the first call's exit -/

-- what the second stretch leaves untouched
set_option maxHeartbeats 4000000 in
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp
set_option maxHeartbeats 4000000 in
theorem W3_arg6 (c : Dev nD) : W3 m ρ c (Proc.devRef .tc main_arg6) = W2 m ρ c (Proc.devRef .tc main_arg6) := by
  show StableHlo.after hostOps1 (W2 m ρ c) (Proc.devRef .tc main_arg6) = _
  after_results_simp
set_option maxHeartbeats 4000000 in
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp
set_option maxHeartbeats 4000000 in
theorem W3_arg8 (c : Dev nD) : W3 m ρ c (Proc.devRef .tc main_arg8) = W2 m ρ c (Proc.devRef .tc main_arg8) := by
  show StableHlo.after hostOps1 (W2 m ρ c) (Proc.devRef .tc main_arg8) = _
  after_results_simp
set_option maxHeartbeats 4000000 in
theorem W3_arg9 (c : Dev nD) : W3 m ρ c (Proc.devRef .tc main_arg9) = W2 m ρ c (Proc.devRef .tc main_arg9) := by
  show StableHlo.after hostOps1 (W2 m ρ c) (Proc.devRef .tc main_arg9) = _
  after_results_simp
set_option maxHeartbeats 4000000 in
theorem W3_v1 (c : Dev nD) : W3 m ρ c (Proc.devRef .tc main_v1) = W2 m ρ c (Proc.devRef .tc main_v1) := by
  show StableHlo.after hostOps1 (W2 m ρ c) (Proc.devRef .tc main_v1) = _
  after_results_simp
set_option maxHeartbeats 4000000 in
theorem W3_v3 (c : Dev nD) : W3 m ρ c (Proc.devRef .tc main_v3) = W2 m ρ c (Proc.devRef .tc main_v3) := by
  show StableHlo.after hostOps1 (W2 m ρ c) (Proc.devRef .tc main_v3) = _
  after_results_simp
set_option maxHeartbeats 4000000 in
theorem W3_v25 (c : Dev nD) : W3 m ρ c (Proc.devRef .tc main_v25) = W2 m ρ c (Proc.devRef .tc main_v25) := by
  show StableHlo.after hostOps1 (W2 m ρ c) (Proc.devRef .tc main_v25) = _
  after_results_simp

set_option maxHeartbeats 8000000 in
theorem W3_v37 (c : Dev nD) :
    (W3 m ρ c (Proc.devRef .tc main_v37) : FVec Ideal S50000x128 .f32)
      = mulf (F := Ideal)
          (Host.scatterAdd (F := Ideal) scatter_S50000x128_S800000x1_S800000x128_1_0_0_1
            (broadcastInDim S50000x128 ![] bcast_S_S50000x128 (constant (F := Ideal) S_ .f32 0x00000000#32))
            (rawCol (W2 m ρ c (Proc.devRef .tc main_v3) : IVec S800000 32))
            (Host.gather gather_S50000x128_S800000x1_S800000x128_1_0_n_n_0_1_1128
              (W2 m ρ c (Proc.devRef .tc main_v25) : FVec Ideal S50000x128 .f32)
              (wrapCol (W2 m ρ c (Proc.devRef .tc main_v1) : IVec S800000 32))))
          (broadcastInDim S50000x128 ![0, 1] bcast_S50000x1_S50000x128_0_1
            (W2 m ρ c (Proc.devRef .tc main_v12) : FVec Ideal S50000x1 .f32)) := by
  show StableHlo.after hostOps1 (W2 m ρ c) (Proc.devRef .tc main_v37) = _
  after_results_simp
  rfl

/-! ## The third stretch, from the second call's exit -/

set_option maxHeartbeats 4000000 in
theorem W5_arg8 (c : Dev nD) : W5 m ρ c (Proc.devRef .tc main_arg8) = W4 m ρ c (Proc.devRef .tc main_arg8) := by
  show StableHlo.after hostOps2 (W4 m ρ c) (Proc.devRef .tc main_arg8) = _
  after_results_simp
set_option maxHeartbeats 4000000 in
theorem W5_arg9 (c : Dev nD) : W5 m ρ c (Proc.devRef .tc main_arg9) = W4 m ρ c (Proc.devRef .tc main_arg9) := by
  show StableHlo.after hostOps2 (W4 m ρ c) (Proc.devRef .tc main_arg9) = _
  after_results_simp

set_option maxHeartbeats 16000000 in
theorem W5_v53 (c : Dev nD) :
    (W5 m ρ c (Proc.devRef .tc main_v53) : FVec Ideal S800000x256 .f32)
      = concatenate S800000x256 1
          [⟨S800000x128, Host.gather gather_S50000x128_S800000x1_S800000x128_1_0_n_n_0_1_1128
              (W4 m ρ c (Proc.devRef .tc main_v38) : FVec Ideal S50000x128 .f32)
              (wrapCol (W4 m ρ c (Proc.devRef .tc main_v1) : IVec S800000 32))⟩,
           ⟨S800000x128, Host.gather gather_S50000x128_S800000x1_S800000x128_1_0_n_n_0_1_1128
              (W4 m ρ c (Proc.devRef .tc main_v38) : FVec Ideal S50000x128 .f32)
              (wrapCol (W4 m ρ c (Proc.devRef .tc main_v3) : IVec S800000 32))⟩]
          concatenates_S800000x128_S800000x128_S800000x256_d1 := by
  show StableHlo.after hostOps2 (W4 m ρ c) (Proc.devRef .tc main_v53) = _
  after_results
  rfl

end Cert.KernelIdeal.Host

end
-- ==== Proof.KValue.lean ====
/-
  The kernel's program, run: its result array as one function of the argument arrays.

  With each pallas_call's result the dense map of its entry arrays (Region0/1/2.lean) and the host stretches read back
  (KHost.lean): the first call leaves `h₁ = sage (kmean x x1) x W1l b1l W1r`, the second
  `h₂ = sage (kmean h₁ x1) h₁ W2l b2l W2r`, the third `cls (feats h₂ x1) Wc bc`, and that is what the result array holds
  when @main returns, the arguments unchanged.
-/
import proofs.«134314_j31619549233491_1_alg».proof.Proof.KHost

set_option maxRecDepth 16384

noncomputable section

namespace Cert.KernelIdeal.Result

open Idealize.ShloMosaic Idealize.ShloMosaic.TcCoe Idealize.SL.Sem
open Cert.KernelIdeal Cert.KernelIdeal.Gen Cert.KernelIdeal.Host

variable (m : (ℓ : Loc nD τ sig) → Buf (Elt Ideal) ℓ) (ρ : Dev nD → PrngReg)

/-- After the first call its result array holds the first layer's output. -/
theorem W2_v25 (c : Dev nD) :
    (W2 m ρ c (Proc.devRef .tc main_v25) : FVec Ideal S50000x128 .f32)
      = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Cert.KernelIdeal.Region0.final (V1 m ρ) c]
  show Cert.Spec.sage (W1 m ρ c (Proc.devRef .tc main_v24)) (W1 m ρ c (Proc.devRef .tc main_arg0)) (W1 m ρ c (Proc.devRef .tc main_arg2))
    (W1 m ρ c (Proc.devRef .tc main_arg3)) (W1 m ρ c (Proc.devRef .tc main_arg4)) = _
  rw [W1_v24, W1_arg0, W1_arg2, W1_arg3, W1_arg4]
  rfl

/-- After the second call its result array holds the second layer's output. -/
theorem W4_v38 (c : Dev nD) :
    (W4 m ρ c (Proc.devRef .tc main_v38) : FVec Ideal S50000x128 .f32)
      = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Cert.KernelIdeal.Region1.final (V3 m ρ) c]
  show Cert.Spec.sage (W3 m ρ c (Proc.devRef .tc main_v37)) (W3 m ρ c (Proc.devRef .tc main_v25)) (W3 m ρ c (Proc.devRef .tc main_arg5))
    (W3 m ρ c (Proc.devRef .tc main_arg6)) (W3 m ρ c (Proc.devRef .tc main_arg7)) = _
  rw [W3_v37, W3_v25, W3_arg5, W3_arg6, W3_arg7, W2_v25,
    W2_of_ne m ρ c main_v3 (by decide), W2_of_ne m ρ c main_v1 (by decide), W2_of_ne m ρ c main_v12 (by decide),
    W2_of_ne m ρ c main_arg5 (by decide), W2_of_ne m ρ c main_arg6 (by decide), W2_of_ne m ρ c main_arg7 (by decide),
    W1_v3, W1_v1, W1_v12, W1_arg5, W1_arg6, W1_arg7]
  rfl

/-- When @main returns the result array holds the edge logits. -/
theorem W6_v54 (c : Dev nD) :
    (W6 m ρ c (Proc.devRef .tc main_v54) : FVec Ideal S800000x2 .f32)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 3).trans ?_
  rw [Cert.KernelIdeal.Region2.final (V5 m ρ) c]
  show Cert.Spec.cls (W5 m ρ c (Proc.devRef .tc main_v53)) (W5 m ρ c (Proc.devRef .tc main_arg8)) (W5 m ρ c (Proc.devRef .tc main_arg9)) = _
  rw [W5_v53, W5_arg8, W5_arg9, W4_v38,
    W4_of_ne m ρ c main_v1 (by decide), W4_of_ne m ρ c main_v3 (by decide), W4_of_ne m ρ c main_arg8 (by decide), W4_of_ne m ρ c main_arg9 (by decide),
    W3_v1, W3_v3, W3_arg8, W3_arg9,
    W2_of_ne m ρ c main_v1 (by decide), W2_of_ne m ρ c main_v3 (by decide), W2_of_ne m ρ c main_arg8 (by decide), W2_of_ne m ρ c main_arg9 (by decide),
    W1_v1, W1_v3, W1_arg8, W1_arg9]
  rfl

/-- THE RUN: every weakly fair execution of @main ends with the result array at the edge logits of the arguments, the
    arguments unchanged. -/
theorem run : θ_run defs (onTc (τ := τ) (main (F := Ideal))) ⟨m, fun _ => 0, ρ⟩ (fun r => ∀ c : Dev nD,
      r.2.mem ((c.tc : Thread nD τ).loc main_v54) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W6_v54 m ρ c), (h c).2⟩) (run_main m ρ)

end Cert.KernelIdeal.Result

end
-- ==== Proof.RefStages.lean ====
/-
  The reference's three dense stages as the network's dense maps (Spec.lean) of the stages they read.

  After each neighbour mean the reference takes the mean and the node features through the two transposed weight
  matrices (a product with a transposed matrix contracts the weights' second axis), adds the bias spread along the rows
  between the two products, and takes the maximum with a zero array: that is `sage` of the mean stage, the feature stage
  and the layer's weights. Its last stage is the product of the joined endpoint features with the transposed classifier
  matrix plus the spread bias: `cls` of the joined features.
-/
import proofs.«134314_j31619549233491_1_alg».proof.Proof.Gen.ReferenceIdeal.Read
import proofs.«134314_j31619549233491_1_alg».proof.Proof.Spec

noncomputable section

namespace Cert.ReferenceIdeal.Stages

open Idealize.ShloMosaic Idealize.ShloMosaic.ValueIdx Cert.ReferenceIdeal Cert.ReferenceIdeal.Read

/-- The first layer's output stage. -/
theorem h1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4 = Cert.Spec.sage (val_main_v21 (F := Ideal) x0 x1) x0 x2 x3 x4 := by
  funext i
  obtain ⟨r, j, rfl⟩ : ∃ (r : Fin 50000) (j : Fin 128), i = ix2 r j := ⟨i 0, i 1, eq_ix2 i⟩
  rw [Cert.Spec.sage_apply]
  rw [val_main_v30_apply, val_main_v29_apply, val_main_v26_apply, val_main_v23_apply, val_main_v25_apply,
    val_main_v24_apply, val_main_v28_apply, val_main_call0_v0_apply, val_main_call0_cst_apply]
  simp only [val_main_v22_apply, val_main_v27_apply]
  -- the composed index maps are the plain coordinates
  have hl : ∀ k : Fin 128, lidx_main_v23 (ix2 r j) k = ix2 r k := fun k => funext fun a => Fin.ext (by match a with | ⟨0, _⟩ => rfl | ⟨1, _⟩ => rfl)
  have hw : ∀ k : Fin 128, idx_main_v22 (ridx_main_v23 (ix2 r j) k) = ix2 j k := fun k => funext fun a => Fin.ext (by match a with | ⟨0, _⟩ => rfl | ⟨1, _⟩ => rfl)
  have hb : idx_main_v24 (idx_main_v25 (ix2 r j)) = ix1 j := funext fun a => Fin.ext (by match a with | ⟨0, _⟩ => rfl)
  have hl' : ∀ k : Fin 128, lidx_main_v28 (ix2 r j) k = ix2 r k := fun k => funext fun a => Fin.ext (by match a with | ⟨0, _⟩ => rfl | ⟨1, _⟩ => rfl)
  have hw' : ∀ k : Fin 128, idx_main_v27 (ridx_main_v28 (ix2 r j) k) = ix2 j k := fun k => funext fun a => Fin.ext (by match a with | ⟨0, _⟩ => rfl | ⟨1, _⟩ => rfl)
  simp only [hl, hw, hb, hl', hw', Ideal.maximumf_def, Ideal.addf_def, Ideal.ofBits_def, Ideal.ofBits_zero_f32]

/-- The second layer's output stage. -/
theorem h2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v57 (F := Ideal) x0 x1 x2 x3 x4 x5 x6 x7
      = Cert.Spec.sage (val_main_v48 (F := Ideal) x0 x1 x2 x3 x4) (val_main_v30 (F := Ideal) x0 x1 x2 x3 x4) x5 x6 x7 := by
  funext i
  obtain ⟨r, j, rfl⟩ : ∃ (r : Fin 50000) (j : Fin 128), i = ix2 r j := ⟨i 0, i 1, eq_ix2 i⟩
  rw [Cert.Spec.sage_apply]
  rw [val_main_v57_apply, val_main_v56_apply, val_main_v53_apply, val_main_v50_apply, val_main_v52_apply,
    val_main_v51_apply, val_main_v55_apply, val_main_call1_v0_apply, val_main_call1_cst_apply]
  simp only [val_main_v49_apply, val_main_v54_apply]
  -- the composed index maps are the plain coordinates
  have hl : ∀ k : Fin 128, lidx_main_v50 (ix2 r j) k = ix2 r k := fun k => funext fun a => Fin.ext (by match a with | ⟨0, _⟩ => rfl | ⟨1, _⟩ => rfl)
  have hw : ∀ k : Fin 128, idx_main_v49 (ridx_main_v50 (ix2 r j) k) = ix2 j k := fun k => funext fun a => Fin.ext (by match a with | ⟨0, _⟩ => rfl | ⟨1, _⟩ => rfl)
  have hb : idx_main_v51 (idx_main_v52 (ix2 r j)) = ix1 j := funext fun a => Fin.ext (by match a with | ⟨0, _⟩ => rfl)
  have hl' : ∀ k : Fin 128, lidx_main_v55 (ix2 r j) k = ix2 r k := fun k => funext fun a => Fin.ext (by match a with | ⟨0, _⟩ => rfl | ⟨1, _⟩ => rfl)
  have hw' : ∀ k : Fin 128, idx_main_v54 (ridx_main_v55 (ix2 r j) k) = ix2 j k := fun k => funext fun a => Fin.ext (by match a with | ⟨0, _⟩ => rfl | ⟨1, _⟩ => rfl)
  simp only [hl, hw, hb, hl', hw', Ideal.maximumf_def, Ideal.addf_def, Ideal.ofBits_def, Ideal.ofBits_zero_f32]

/-- The result stage. -/
theorem out_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S2x256, .f32⟩ : BufTy).Contents (Elt Ideal)) (x9 : (⟨S2, .f32⟩ : BufTy).Contents (Elt Ideal)) :
    val_main_v77 (F := Ideal) x0 x1 x2 x3 x4 x5 x6 x7 x8 x9 = Cert.Spec.cls (val_main_v72 (F := Ideal) x0 x1 x2 x3 x4 x5 x6 x7) x8 x9 := by
  funext i
  obtain ⟨e, j, rfl⟩ : ∃ (e : Fin 800000) (j : Fin 2), i = ix2 e j := ⟨i 0, i 1, eq_ix2 i⟩
  rw [Cert.Spec.cls_apply]
  rw [val_main_v77_apply, val_main_v74_apply, val_main_v76_apply, val_main_v75_apply]
  simp only [val_main_v73_apply]
  -- the composed index maps are the plain coordinates
  have hl : ∀ k : Fin 256, lidx_main_v74 (ix2 e j) k = ix2 e k := fun k => funext fun a => Fin.ext (by match a with | ⟨0, _⟩ => rfl | ⟨1, _⟩ => rfl)
  have hw : ∀ k : Fin 256, idx_main_v73 (ridx_main_v74 (ix2 e j) k) = ix2 j k := fun k => funext fun a => Fin.ext (by match a with | ⟨0, _⟩ => rfl | ⟨1, _⟩ => rfl)
  have hb : idx_main_v75 (idx_main_v76 (ix2 e j)) = ix1 j := funext fun a => Fin.ext (by match a with | ⟨0, _⟩ => rfl)
  simp only [hl, hw, hb, Ideal.addf_def]

end Cert.ReferenceIdeal.Stages

end
-- ==== Proof.LibRowOps.lean ====
/-
  A row gather and a row scatter-add read at an index, over any extents.

  `x[idx]` of a table `x : [N, C]` at a column of row numbers `idx : [E, 1]` is a gather whose result `[E, C]` holds, at
  `(e, c)`, the table's row `idx[e, 0]` (read as a signed integer and clamped into `[0, N − 1]`) at column `c`. The
  accumulating scatter of updates `u : [E, C]` into `x : [N, C]` at the same kind of column adds, at `(n, c)`, every
  `u[e, c]` whose row number `idx[e, 0]`, read as a signed integer and NOT clamped, is `n`; an update whose row number
  is no row is dropped. Both are stated for any dimension record with those dimension numbers (each hypothesis is
  closed by `rfl` at a literal record), so one statement serves tables of different widths.

  The road, for both: the hypotheses make the record the literal one; on the row axis (collapsed / inserted, and the one
  the index map names) the start is the row number read off `idx[e, 0]` and the offset / window coordinate is 0; on the
  column axis the start is 0 and the offset / window coordinate is the column. For the scatter an update `(e, c')` then
  lands at `(n, c)` exactly when its row number is `n` and `c' = c` (the column is always in range), and the sum over
  the rank-2 update indices, split into rows and columns, keeps one column per row.
-/
import Idealize.ShloMosaic.PureOps.Ideal
import Idealize.ShloMosaic.Lib.ValueIdx

noncomputable section

namespace Idealize.ShloMosaic.RowOps

open Idealize.ShloMosaic Idealize.ShloMosaic.ValueIdx

/-- **A row gather at `(e, c)`**: the table at the clamped row number, same column. -/
theorem rowGather_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c)
      = x (ix2 (⟨min (idx (ix2 e (0 : Fin 1))).toInt.toNat (N - 1), by omega⟩ : Fin N) c) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the row axis: collapsed, so no offset; its start is the clamped row number, `N - 1` being `size − slice size`
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (s := ⟨2, ![N, C]⟩) (si := ⟨2, ![E, 1]⟩) (t := ⟨2, ![E, C]⟩)
        ⟨[1], [0], [], [], [0], 1, ![1, C], wf⟩ (ix2 e c)
        ⟨List.idxOf (0 : Fin 2) [(0 : Fin 2)], List.idxOf_lt_length_iff.2 (List.mem_singleton.mpr rfl)⟩
        = ix2 e (0 : Fin 1) := by
      funext b; refine Fin.ext ?_
      match b with
      | ⟨0, _⟩ => rfl
      | ⟨1, _⟩ => rfl
    rw [hsi]
    rfl
  | ⟨1, _⟩ =>
    -- the column axis: not in the start index map, so start 0; the offset is the result's column
    show GatherDims.start _ _ idx 1 + GatherDims.batchCoord _ _ 1 + GatherDims.offCoord _ _ 1 = _
    rw [GatherDims.batchCoord_eq_zero _ _ _ List.not_mem_nil]
    unfold GatherDims.start
    rw [dif_neg (show ¬ ((1 : Fin 2) ∈ [(0 : Fin 2)]) by decide)]
    unfold GatherDims.offCoord
    rw [dif_pos ((GatherDims.mem_sKept _ _).mpr
      ⟨(show ¬ ((1 : Fin 2) ∈ [(0 : Fin 2)]) by decide), List.not_mem_nil⟩)]
    simp only [Nat.zero_add]
    rfl

/-- The literal record of the row scatter's dimension numbers. -/
private abbrev sdims {N E C : Nat}
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- An operand axis is kept exactly when it is not listed. -/
private theorem mem_kept (s : Shape) (axes : List (Fin s.rank)) (a : Fin s.rank) : a ∈ s.kept axes ↔ a ∉ axes := by
  simp [Shape.kept, List.mem_filter, List.mem_finRange]

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed row number. -/
private theorem sdims_start0 : (sdims wf).start (ix2 e c') idx 0 = (idx (ix2 e (0 : Fin 1))).toInt := by
  unfold ScatterDims.start
  rw [dif_pos (show (0 : Fin 2) ∈ [(0 : Fin 2)] from List.mem_singleton.mpr rfl)]
  have hsi : (sdims wf).siIdx (ix2 e c')
      ⟨List.idxOf (0 : Fin 2) [(0 : Fin 2)], List.idxOf_lt_length_iff.2 (List.mem_singleton.mpr rfl)⟩
      = ix2 e (0 : Fin 1) := by
    funext b; refine Fin.ext ?_
    match b with
    | ⟨0, _⟩ => rfl
    | ⟨1, _⟩ => rfl
  rw [hsi]

/-- On the column axis the window starts at 0. -/
private theorem sdims_start1 : (sdims wf).start (ix2 e c') idx 1 = 0 := by
  unfold ScatterDims.start
  rw [dif_neg (show ¬ ((1 : Fin 2) ∈ [(0 : Fin 2)]) by decide)]

/-- The row axis is inserted: window coordinate 0. -/
private theorem sdims_window0 : (sdims wf).window (ix2 e c') 0 = 0 := by
  unfold ScatterDims.window
  rw [dif_neg (fun h => ((mem_kept _ _ _).mp h) (List.mem_singleton.mpr rfl))]

/-- The column axis carries the update's column. -/
private theorem sdims_window1 : (sdims wf).window (ix2 e c') 1 = c'.val := by
  unfold ScatterDims.window
  rw [dif_pos ((mem_kept _ _ _).mpr (show ¬ ((1 : Fin 2) ∈ [(0 : Fin 2)]) by decide))]
  rfl

/-- An update at `(e, c')` lands at `(n, c)` exactly when its signed row number is `n` and its column is `c`. -/
private theorem sdims_resultIdx_iff (n : Fin N) (c : Fin C) :
    (sdims wf).resultIdx? (ix2 e c') idx = some (ix2 n c)
      ↔ ((idx (ix2 e (0 : Fin 1))).toInt = (n.val : Int) ∧ c' = c) := by
  have hs0 := sdims_start0 wf idx e c'
  have hs1 := sdims_start1 wf idx e c'
  have hw0 := sdims_window0 wf e c'
  have hw1 := sdims_window1 wf e c'
  unfold ScatterDims.resultIdx?
  constructor
  · intro h
    split at h
    · rename_i hall
      have h' := Option.some.inj h
      have h0 : ((sdims wf).start (ix2 e c') idx 0 + ((sdims wf).window (ix2 e c') 0 : Nat)).toNat = n.val :=
        congrArg (fun f => (f 0).val) h'
      have h1 : ((sdims wf).start (ix2 e c') idx 1 + ((sdims wf).window (ix2 e c') 1 : Nat)).toNat = c.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hn : n.val < N := n.isLt
    have hc : c'.val < C := c'.isLt
    have hall : ∀ a : Fin 2, 0 ≤ (sdims wf).start (ix2 e c') idx a + ((sdims wf).window (ix2 e c') a : Nat) ∧
        (sdims wf).start (ix2 e c') idx a + ((sdims wf).window (ix2 e c') a : Nat)
          < ((⟨2, ![N, C]⟩ : Shape).size a : Nat) := by
      intro a
      match a with
      | ⟨0, _⟩ =>
        show 0 ≤ (sdims wf).start (ix2 e c') idx 0 + ((sdims wf).window (ix2 e c') 0 : Nat) ∧
          (sdims wf).start (ix2 e c') idx 0 + ((sdims wf).window (ix2 e c') 0 : Nat) < (N : Int)
        rw [hs0, hw0, h0]; omega
      | ⟨1, _⟩ =>
        show 0 ≤ (sdims wf).start (ix2 e c') idx 1 + ((sdims wf).window (ix2 e c') 1 : Nat) ∧
          (sdims wf).start (ix2 e c') idx 1 + ((sdims wf).window (ix2 e c') 1 : Nat) < (C : Int)
        rw [hs1, hw1]; omega
    rw [dif_pos hall]
    congr 1
    funext a; refine Fin.ext ?_
    match a with
    | ⟨0, _⟩ =>
      show ((sdims wf).start (ix2 e c') idx 0 + ((sdims wf).window (ix2 e c') 0 : Nat)).toNat = n.val
      rw [hs0, hw0, h0]; omega
    | ⟨1, _⟩ =>
      show ((sdims wf).start (ix2 e c') idx 1 + ((sdims wf).window (ix2 e c') 1 : Nat)).toNat = c'.val
      rw [hs1, hw1]; omega

end

/-- **A row scatter-add at `(n, c)`**, at the ideal values: the operand's element plus the sum of the updates of
    column `c` whose row number is `n`. -/
theorem rowScatterAdd_apply {N E C w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e ∈ Finset.univ.filter (fun e : Fin E => (idx (ix2 e (0 : Fin 1))).toInt = (n.val : Int)),
          upd (ix2 e c) := by
  obtain ⟨uw, iw, sd, iv, wf⟩ := d
  simp only at huw hiw hsd hiv
  subst huw hiw hsd hiv
  rw [Host.scatterAdd, Ideal.hostScatterAdd_def, Ideal.hostScatterAdd]
  congr 1
  -- both sums as sums of `if`s; the left one over rows then columns; per row, only column `c` can contribute
  rw [Finset.sum_filter, Finset.sum_filter, sum_idx2]
  refine Finset.sum_congr rfl fun e _ => ?_
  have key : ∀ c' : Fin C, (sdims wf).resultIdx? (ix2 e c') idx = some (ix2 n c)
      ↔ ((idx (ix2 e (0 : Fin 1))).toInt = (n.val : Int) ∧ c' = c) :=
    fun c' => sdims_resultIdx_iff wf idx e c' n c
  simp only [key, ite_and]
  by_cases h : (idx (ix2 e (0 : Fin 1))).toInt = (n.val : Int)
  · simp only [if_pos h]
    rw [Finset.sum_ite_eq' Finset.univ c (fun b => upd (ix2 e b)), if_pos (Finset.mem_univ c)]
  · simp only [if_neg h]
    exact Finset.sum_const_zero

end Idealize.ShloMosaic.RowOps

end
-- ==== Proof.MeanLaw.lean ====
/-
  The neighbour mean, two ways: the sum scaled by a reciprocal count against the sum divided by the count.

  The count of a node is how many edges name it as their destination: the accumulating scatter of ones, into a vector
  of zeros (one entry a node) or into a one-column matrix of zeros. Read at a node both are the NUMBER of edges whose
  row number, read signed, is that node: a natural number, so after the maximum with 1 a real number that is at least 1.
  Dividing any extended real by a nonzero real is multiplying by its reciprocal, at the infinities too, and the
  reciprocal of such a real is again that real's inverse: `a · (1 / max(k,1)) = a / max(k,1)` for every extended real
  `a` and natural `k`. No finiteness of `a` is used.
-/
import proofs.«134314_j31619549233491_1_alg».proof.Proof.LibRowOps

noncomputable section

namespace Cert.MeanLaw

open Idealize.ShloMosaic Idealize.ShloMosaic.ValueIdx

/-- The word of `0.0` denotes 0 and the word of `1.0` denotes 1. -/
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]
  norm_num

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The literal record of the vector scatter's dimension numbers. -/
private abbrev vdims {N E : Nat}
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section
variable {N E w : Nat} (wf : ScatterDims.WF ⟨1, ![N]⟩ ⟨2, ![E, 1]⟩ ⟨1, ![E]⟩ [] [0] [0] 1)
  (idx : IVec ⟨2, ![E, 1]⟩ w) (e : Fin E)

/-- On the one operand axis the window starts at the signed row number. -/
private theorem vdims_start0 : (vdims wf).start (ix1 e) idx 0 = (idx (ix2 e (0 : Fin 1))).toInt := by
  unfold ScatterDims.start
  rw [dif_pos (show (0 : Fin 1) ∈ [(0 : Fin 1)] from List.mem_singleton.mpr rfl)]
  have hsi : (vdims wf).siIdx (ix1 e)
      ⟨List.idxOf (0 : Fin 1) [(0 : Fin 1)], List.idxOf_lt_length_iff.2 (List.mem_singleton.mpr rfl)⟩
      = ix2 e (0 : Fin 1) := by
    funext b; refine Fin.ext ?_
    match b with
    | ⟨0, _⟩ => rfl
    | ⟨1, _⟩ => rfl
  rw [hsi]

/-- The operand axis is inserted: window coordinate 0. -/
private theorem vdims_window0 : (vdims wf).window (ix1 e) 0 = 0 := by
  unfold ScatterDims.window
  rw [dif_neg (fun h => by
    simp [Shape.kept, List.mem_filter, List.mem_finRange] at h)]

/-- An update at `e` lands at `n` exactly when its signed row number is `n`. -/
private theorem vdims_resultIdx_iff (n : Fin N) :
    (vdims wf).resultIdx? (ix1 e) idx = some (ix1 n) ↔ (idx (ix2 e (0 : Fin 1))).toInt = (n.val : Int) := by
  have hs0 := vdims_start0 wf idx e
  have hw0 := vdims_window0 wf e
  unfold ScatterDims.resultIdx?
  constructor
  · intro h
    split at h
    · rename_i hall
      have h' := Option.some.inj h
      have h0 : ((vdims wf).start (ix1 e) idx 0 + ((vdims wf).window (ix1 e) 0 : Nat)).toNat = n.val :=
        congrArg (fun f => (f 0).val) h'
      have ha := (hall 0).1
      rw [hs0, hw0] at h0 ha
      omega
    · exact absurd h (by simp)
  · intro h0
    have hn : n.val < N := n.isLt
    have hall : ∀ a : Fin 1, 0 ≤ (vdims wf).start (ix1 e) idx a + ((vdims wf).window (ix1 e) a : Nat) ∧
        (vdims wf).start (ix1 e) idx a + ((vdims wf).window (ix1 e) a : Nat)
          < ((⟨1, ![N]⟩ : Shape).size a : Nat) := by
      intro a
      match a with
      | ⟨0, _⟩ =>
        show 0 ≤ (vdims wf).start (ix1 e) idx 0 + ((vdims wf).window (ix1 e) 0 : Nat) ∧
          (vdims wf).start (ix1 e) idx 0 + ((vdims wf).window (ix1 e) 0 : Nat) < (N : Int)
        rw [hs0, hw0, h0]; omega
    rw [dif_pos hall]
    congr 1
    funext a; refine Fin.ext ?_
    match a with
    | ⟨0, _⟩ =>
      show ((vdims wf).start (ix1 e) idx 0 + ((vdims wf).window (ix1 e) 0 : Nat)).toNat = n.val
      rw [hs0, hw0, h0]; omega

end

/-- **A scatter-add into a VECTOR at `n`**: the operand's entry plus the sum of the updates whose row number is `n`. -/
theorem vecScatterAdd_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (n : Fin N) :
    Host.scatterAdd d x idx upd (ix1 n)
      = x (ix1 n) + ∑ e ∈ Finset.univ.filter (fun e : Fin E => (idx (ix2 e (0 : Fin 1))).toInt = (n.val : Int)),
          upd (ix1 e) := by
  obtain ⟨uw, iw, sd, iv, wf⟩ := d
  simp only at huw hiw hsd hiv
  subst huw hiw hsd hiv
  rw [Host.scatterAdd, Ideal.hostScatterAdd_def, Ideal.hostScatterAdd]
  congr 1
  -- both sums as sums of `if`s, the left one over the one coordinate; edge by edge the conditions agree
  rw [Finset.sum_filter, Finset.sum_filter, sum_idx1]
  refine Finset.sum_congr rfl fun e _ => ?_
  have key : (vdims wf).resultIdx? (ix1 e) idx = some (ix1 n)
      ↔ (idx (ix2 e (0 : Fin 1))).toInt = (n.val : Int) := vdims_resultIdx_iff wf idx e n
  simp only [key]

/-- The number of edges whose destination row number is `n`. -/
def deg {N E w : Nat} (idx : IVec ⟨2, ![E, 1]⟩ w) (n : Fin N) : ℕ :=
  (Finset.univ.filter (fun e : Fin E => (idx (ix2 e (0 : Fin 1))).toInt = (n.val : Int))).card

/-- The scatter of ones into a vector of zeros counts. -/
theorem count_vec {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (n : Fin N) :
    Host.scatterAdd (F := Ideal) d (fun _ => Ideal.ofBits .f32 0x00000000#32) idx (fun _ => Ideal.ofBits .f32 0x3F800000#32) (ix1 n)
      = ((deg idx n : ℕ) : EReal) := by
  rw [vecScatterAdd_apply d huw hiw hsd hiv]
  simp only [ofBits_zero, ofBits_one, Finset.sum_const, zero_add, nsmul_one, deg]

/-- The scatter of ones into a one-column matrix of zeros counts the same. -/
theorem count_col {N E w : Nat}
    (d : ScatterDims ⟨2, ![N, 1]⟩ ⟨2, ![E, 1]⟩ ⟨2, ![E, 1]⟩)
    (huw : d.updateWindowDims = [1]) (hiw : d.insertedWindowDims = [0]) (hsd : d.scatterDimsToOperandDims = [0])
    (hiv : d.indexVectorDim = 1) (idx : IVec ⟨2, ![E, 1]⟩ w) (n : Fin N) :
    Host.scatterAdd (F := Ideal) d (fun _ => Ideal.ofBits .f32 0x00000000#32) idx (fun _ => Ideal.ofBits .f32 0x3F800000#32) (ix2 n (0 : Fin 1))
      = ((deg idx n : ℕ) : EReal) := by
  rw [RowOps.rowScatterAdd_apply d huw hiw hsd hiv]
  simp only [ofBits_zero, ofBits_one, Finset.sum_const, zero_add, nsmul_one, deg]

/-- Scaling by the reciprocal of `max(k, 1)` is dividing by `max(k, 1)`, on every extended real. -/
theorem scale_eq_div (a : EReal) (k : ℕ) :
    a * Ideal.div (Ideal.ofBits .f32 0x3F800000#32) (max ((k : ℕ) : EReal) (Ideal.ofBits .f32 0x3F800000#32))
      = Ideal.div a (max ((k : ℕ) : EReal) (Ideal.ofBits .f32 0x3F800000#32)) := by
  rw [ofBits_one]
  -- the maximum is the real number `max k 1`, which is at least 1
  have h : max ((k : ℕ) : EReal) 1 = ((max (k : ℝ) 1 : ℝ) : EReal) := by
    rw [EReal.coe_strictMono.monotone.map_max, EReal.coe_natCast, EReal.coe_one]
  have hne : max (k : ℝ) 1 ≠ 0 := ne_of_gt (lt_of_lt_of_le one_pos (le_max_right _ _))
  rw [h, Ideal.div_coe hne, Ideal.div_coe hne, one_mul]

end Cert.MeanLaw

end
-- ==== Proof.MeanBridge.lean ====
/-
  The kernel's host operations against the reference's stages.

  The two programs gather and scatter through the same columns of row numbers (the same operations on the same edge
  list), so their gathered, added-up tables are one term of the feature table. They differ in how the sum becomes a
  mean: the kernel multiplies by the reciprocal of `max(count, 1)`, the count taken into a vector; the reference divides
  by `max(count, 1)`, the count taken into a one-column matrix. Both counts are the number of edges into the node
  (MeanLaw.lean), and scaling by the reciprocal of a real that is at least 1 is dividing by it, on every extended real.
  The joined endpoint features are one term of the feature table on both sides.
-/
import proofs.«134314_j31619549233491_1_alg».proof.Proof.KDefs
import proofs.«134314_j31619549233491_1_alg».proof.Proof.MeanLaw
import proofs.«134314_j31619549233491_1_alg».proof.Proof.Gen.ReferenceIdeal.Read
import Idealize.ShloMosaic.Lib.Pipeline.Value

noncomputable section

namespace Cert.Bridge

open Idealize.ShloMosaic Idealize.ShloMosaic.ValueIdx
open Cert.ReferenceIdeal Cert.ReferenceIdeal.Gen Cert.ReferenceIdeal.Read

/-- The reference's neighbour mean of a feature table: the gathered source rows added up per destination, divided by
    the count (at least 1). -/
def meanR (h : FVec Ideal S50000x128 .f32) (x1 : IVec S2x800000 32) : FVec Ideal S50000x128 .f32 :=
  Host.divf
    (Host.scatterAdd scatter_S50000x128_S800000x1_S800000x128_1_0_0_1 (val_main_v11 (F := Ideal)) (val_main_v12 (F := Ideal) x1)
      (Host.gather gather_S50000x128_S800000x1_S800000x128_1_0_n_n_0_1_1128 h (val_main_v9 (F := Ideal) x1)))
    (val_main_v20 (F := Ideal) x1)

/-- The reference's joined endpoint features of a feature table. -/
def featsR (h : FVec Ideal S50000x128 .f32) (x1 : IVec S2x800000 32) : FVec Ideal S800000x256 .f32 :=
  concatenate S800000x256 1
    [⟨S800000x128, Host.gather gather_S50000x128_S800000x1_S800000x128_1_0_n_n_0_1_1128 h (val_main_v63 (F := Ideal) x1)⟩,
     ⟨S800000x128, Host.gather gather_S50000x128_S800000x1_S800000x128_1_0_n_n_0_1_1128 h (val_main_v70 (F := Ideal) x1)⟩]
    concatenates_S800000x128_S800000x128_S800000x256_d1

/-- The first layer's mean stage is the mean of the features. -/
theorem v21_eq (x0 : (⟨S50000x128, .f32⟩ : BufTy).Contents (Elt Ideal)) (x1 : (⟨S2x800000, .i32⟩ : BufTy).Contents (Elt Ideal)) : val_main_v21 (F := Ideal) x0 x1 = meanR x0 x1 := rfl

/-- The second layer's mean stage is the mean of the first layer's output stage. -/
theorem v48_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = meanR (val_main_v30 (F := Ideal) x0 x1 x2 x3 x4) x1 := rfl

/-- The joined-features stage is the joined features of the second layer's output stage. -/
theorem v72_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v72 (F := Ideal) x0 x1 x2 x3 x4 x5 x6 x7 = featsR (val_main_v57 (F := Ideal) x0 x1 x2 x3 x4 x5 x6 x7) x1 := rfl

/-- The two programs' joined features are one term. -/
theorem feats_eq (h : FVec Ideal S50000x128 .f32) (x1 : IVec S2x800000 32) :
    Cert.KernelIdeal.Host.feats h x1 = featsR h x1 := rfl

/-- The destination column is the same on both sides. -/
theorem dstCol_eq (x1 : IVec S2x800000 32) :
    Cert.KernelIdeal.Host.rawCol (Cert.KernelIdeal.Host.dstV x1) = val_main_v12 (F := Ideal) x1 := rfl
theorem dstCol_eq' (x1 : IVec S2x800000 32) :
    val_main_v16 (F := Ideal) x1 = val_main_v12 (F := Ideal) x1 := rfl

/-- The gathered, added-up table is the same term on both sides. -/
theorem agg_eq (h : FVec Ideal S50000x128 .f32) (x1 : IVec S2x800000 32) :
    Host.scatterAdd Cert.KernelIdeal.scatter_S50000x128_S800000x1_S800000x128_1_0_0_1
      (broadcastInDim Cert.KernelIdeal.S50000x128 ![] Cert.KernelIdeal.Gen.bcast_S_S50000x128 (constant Cert.KernelIdeal.S_ .f32 0x00000000#32))
      (Cert.KernelIdeal.Host.rawCol (Cert.KernelIdeal.Host.dstV x1))
      (Host.gather Cert.KernelIdeal.gather_S50000x128_S800000x1_S800000x128_1_0_n_n_0_1_1128 h (Cert.KernelIdeal.Host.wrapCol (Cert.KernelIdeal.Host.srcV x1)))
    = Host.scatterAdd scatter_S50000x128_S800000x1_S800000x128_1_0_0_1 (val_main_v11 (F := Ideal)) (val_main_v12 (F := Ideal) x1)
      (Host.gather gather_S50000x128_S800000x1_S800000x128_1_0_n_n_0_1_1128 h (val_main_v9 (F := Ideal) x1)) := rfl

/-- The host's quotient at an index. -/
theorem hostDivf_apply {s : Shape} (a b : FVec Ideal s .f32) (i : s.Idx) : Host.divf a b i = Ideal.div (a i) (b i) := rfl

/-- A scalar constant spread over any shape is that constant everywhere. -/
theorem bcast_scalar_eq {t : Shape} (dims : Fin 0 → Fin t.rank) (hb : (⟨0, ![]⟩ : Shape).BroadcastsInDim t dims) (w : BitVec 32) :
    broadcastInDim t dims hb (constant (F := Ideal) ⟨0, ![]⟩ .f32 w) = fun _ => Ideal.ofBits .f32 w := by
  funext j
  have e := broadcastInDim_apply (s := ⟨0, ![]⟩) (t := t) dims hb (constant (F := Ideal) ⟨0, ![]⟩ .f32 w) j
    (fun a => Fin.elim0 a) (fun a => Fin.elim0 a)
  exact e.trans (constant_apply (φ := .f32) w _)

/-- The kernel's scale at `(n, c)`: the reciprocal of the node's edge count, at least 1. -/
theorem scale_apply (x1 : IVec S2x800000 32) (n : Fin 50000) (c : Fin 128) :
    broadcastInDim Cert.KernelIdeal.S50000x128 ![0, 1] Cert.KernelIdeal.Gen.bcast_S50000x1_S50000x128_0_1 (Cert.KernelIdeal.Host.invCnt x1) (ix2 n c)
      = Ideal.div (Ideal.ofBits .f32 0x3F800000#32)
          (max ((Cert.MeanLaw.deg (val_main_v12 (F := Ideal) x1) n : ℕ) : EReal) (Ideal.ofBits .f32 0x3F800000#32)) := by
  rw [broadcastInDim_apply _ Cert.KernelIdeal.Gen.bcast_S50000x1_S50000x128_0_1 (Cert.KernelIdeal.Host.invCnt x1) (ix2 n c) (ix2 n (0 : Fin 1)) (fun a => match a with
    | ⟨0, _⟩ => by show n.val = if (50000 : Nat) = 1 then 0 else n.val; rw [if_neg (by decide)]
    | ⟨1, _⟩ => by show 0 = if (1 : Nat) = 1 then 0 else c.val; rw [if_pos rfl])]
  unfold Cert.KernelIdeal.Host.invCnt
  rw [broadcastInDim_apply _ Cert.KernelIdeal.Gen.bcast_S50000_S50000x1_0 _ (ix2 n (0 : Fin 1)) (ix1 n) (fun a => match a with
    | ⟨0, _⟩ => by show n.val = if (50000 : Nat) = 1 then 0 else n.val; rw [if_neg (by decide)])]
  rw [hostDivf_apply, maximumf_apply]
  simp only [bcast_scalar_eq]
  rw [Cert.MeanLaw.count_vec Cert.KernelIdeal.scatter_S50000_S800000x1_S800000_n_0_0_1 rfl rfl rfl rfl, dstCol_eq]

/-- The reference's divisor at `(n, c)`: the node's edge count, at least 1. -/
theorem divisor_apply (x1 : IVec S2x800000 32) (n : Fin 50000) (c : Fin 128) :
    val_main_v20 (F := Ideal) x1 (ix2 n c)
      = max ((Cert.MeanLaw.deg (val_main_v12 (F := Ideal) x1) n : ℕ) : EReal) (Ideal.ofBits .f32 0x3F800000#32) := by
  rw [val_main_v20_apply]
  have e : idx_main_v20 (ix2 n c) = ix2 n (0 : Fin 1) := funext fun a => Fin.ext (by
    match a with
    | ⟨0, _⟩ => rfl
    | ⟨1, _⟩ => rfl)
  rw [e]
  unfold val_main_v19
  rw [maximumf_apply]
  unfold val_main_v17 val_main_v18 val_main_v15 val_main_v14 val_main_cst_1 val_main_cst_2 val_main_cst_3
  simp only [bcast_scalar_eq]
  rw [Cert.MeanLaw.count_col scatter_S50000x1_S800000x1_S800000x1_1_0_0_1 rfl rfl rfl rfl, dstCol_eq']

/-- **The two neighbour means agree**, for every feature table. -/
theorem mean_eq (h : FVec Ideal S50000x128 .f32) (x1 : IVec S2x800000 32) :
    Cert.KernelIdeal.Host.kmean h x1 = meanR h x1 := by
  funext i
  obtain ⟨n, c, rfl⟩ : ∃ (n : Fin 50000) (c : Fin 128), i = ix2 n c := ⟨i 0, i 1, eq_ix2 i⟩
  unfold Cert.KernelIdeal.Host.kmean meanR
  rw [agg_eq h x1, mulf_apply, hostDivf_apply, scale_apply x1 n c, divisor_apply x1 n c]
  exact Cert.MeanLaw.scale_eq_div _ _

end Cert.Bridge

end
-- ==== Proof.Equal.lean ====
/-
  The reference's result stage is the kernel's edge logits, as functions of the ten argument arrays.

  Stage by stage: the reference's result is `cls` of its joined features (RefStages.lean), which are the joined features
  of its second layer's output; that output is `sage` of the second mean stage and the first layer's output, the mean
  stage the reference's mean of the first layer's output; and so on down to the arguments. The reference's mean is the
  kernel's (MeanBridge.lean) and the joined features are one term, so the whole is the kernel's composition.
-/
import proofs.«134314_j31619549233491_1_alg».proof.Proof.RefStages
import proofs.«134314_j31619549233491_1_alg».proof.Proof.MeanBridge

noncomputable section

namespace Cert.Equal

open Idealize.ShloMosaic
open Cert.ReferenceIdeal Cert.ReferenceIdeal.Read

theorem result_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S2x256, .f32⟩ : BufTy).Contents (Elt Ideal)) (x9 : (⟨S2, .f32⟩ : BufTy).Contents (Elt Ideal)) :
    val_main_v77 (F := Ideal) x0 x1 x2 x3 x4 x5 x6 x7 x8 x9 = Cert.KernelIdeal.Result.out x0 x1 x2 x3 x4 x5 x6 x7 x8 x9 := by
  rw [Cert.ReferenceIdeal.Stages.out_eq, Cert.Bridge.v72_eq, Cert.ReferenceIdeal.Stages.h2_eq, Cert.Bridge.v48_eq,
    Cert.ReferenceIdeal.Stages.h1_eq, Cert.Bridge.v21_eq]
  rw [← Cert.Bridge.feats_eq, ← Cert.Bridge.mean_eq, ← Cert.Bridge.mean_eq]
  rfl

end Cert.Equal

end
-- ==== Proof.lean ====
/-
  An edge classifier over a graph: two SAGE layers (neighbour mean, two weight matrices, a bias, the rectifier) and a
  linear classifier on the joined endpoint embeddings of every edge. The kernel's program keeps the gathers and the
  per-destination sums on the host and runs the three dense maps as pallas_calls over blocks of rows; the reference
  is plain array code. Over the extended reals the two compute one function of the ten argument arrays:

  * each pallas_call leaves in its result array the dense map of the arrays it is entered with (the body on a block of
    rows is the dense map of that block, the dense maps are row-wise, and the blocks cover the rows);
  * the reference's dense stages are the same dense maps of the stages they read;
  * the host side differs only in how a per-destination sum becomes a mean — times the reciprocal of `max(count, 1)`
    against divided by `max(count, 1)` — and these agree on every extended real because the count is a natural number;
  * the gathers, the scatter and the joining of the two endpoint halves are one term on both sides.

  The three frames are the generated ones (the reference's is its run with the result dropped); the idealization rewrote
  nothing, so `preserves` is trivial.
-/
import proofs.«134314_j31619549233491_1_alg».proof.Defs
import proofs.«134314_j31619549233491_1_alg».proof.Proof.Gen.Kernel
import proofs.«134314_j31619549233491_1_alg».proof.Proof.Gen.Kernel.Frame
import proofs.«134314_j31619549233491_1_alg».proof.Proof.Gen.KernelIdeal
import proofs.«134314_j31619549233491_1_alg».proof.Proof.Gen.KernelIdeal.Frame
import proofs.«134314_j31619549233491_1_alg».proof.Proof.Gen.ReferenceIdeal
import proofs.«134314_j31619549233491_1_alg».proof.Proof.Gen.Pre_finite_inputs
import proofs.«134314_j31619549233491_1_alg».proof.Proof.Gen.ReferenceIdeal.Run
import proofs.«134314_j31619549233491_1_alg».proof.Proof.Gen.ReferenceIdeal.Read
import proofs.«134314_j31619549233491_1_alg».proof.Proof.KValue
import proofs.«134314_j31619549233491_1_alg».proof.Proof.Equal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the edge logits of the arguments (the kernel's run; the reference's
    run, its result term read stage by stage), on memories that agree on the arguments. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v77_eq, e0, e1, e2, e3, e4, e5, e6, e7, e8, e9]
  exact Cert.Equal.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
